-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_rows" .f32 0x39AAAAAB#32 ((1 / 3072 : ℝ) : EReal)

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 768]⟩ ⟨2, ![1, 1536]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S3072x1536 : Shape := ⟨2, ![3072, 1536]⟩
abbrev S_ : Shape := ⟨0, ![]⟩

class Facts : Prop where
  bcast_S_S3072x1536 : S_.BroadcastsInDim S3072x1536 (![] : Fin 0 → Fin S3072x1536.rank)
  reducesTo_S3072x1536_S_d0_1 : S3072x1536.ReducesTo [0, 1] S_
  h_S_ : 0 < S_.numel

variable [Facts]

def fn {F : FTy → Type} [FloatOps F] (main_arg0 : FVec F S3072x1536 .f32) : IVec S_ 1 :=
  let main_v0 : FVec F S3072x1536 .f32 := Host.absf main_arg0
  let main_cst : FVec F S_ .f32 := constant S_ .f32 0x7F800000#32
  let main_v1 : FVec F S3072x1536 .f32 := broadcastInDim S3072x1536 ![] bcast_S_S3072x1536 main_cst
  let main_v2 : IVec S3072x1536 1 := cmpf .olt main_v0 main_v1
  let main_c : IVec S_ 1 := constantI S_ 1 1#1
  let main_v3 : IVec S_ 1 := (fun x v => Host.reduce IntOp.andi x v reducesTo_S3072x1536_S_d0_1 h_S_) main_v2 main_c
  main_v3
-- ==== Kernel.lean ====
abbrev S1536x768 : Shape := ⟨2, ![1536, 768]⟩
abbrev S1x768 : Shape := ⟨2, ![1, 768]⟩
abbrev S2x1x768 : Shape := ⟨3, ![2, 1, 768]⟩
abbrev S_ : Shape := ⟨0, ![]⟩
abbrev S768 : Shape := ⟨1, ![768]⟩
abbrev S1x1x768 : Shape := ⟨3, ![1, 1, 768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S2x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v15 : BitVec 32 := Scalar.muli v6 c2_i32_8
  let v16 : BitVec 32 := Scalar.addi c0_i32 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v17 : BitVec 32 := Scalar.muli v5 c1_i32_9
  let v18 : BitVec 32 := Scalar.addi v16 v17
  v18.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S2x1x768_S1x1x768_0_0_0 : ∀ a, (![0, 0, 0] : Fin 3 → Nat) a + S1x1x768.size a ≤ S2x1x768.size a
  h_S1x1x768 : 0 < S1x1x768.numel
  shapeCasts_S1x1x768_S1x768 : S1x1x768.ShapeCasts S1x768
  shapeCasts_S1x768_S1x1x768 : S1x768.ShapeCasts S1x1x768
  hamt_1 : (1#32 : BitVec 32).msb = false
  inb_S2x1x768_S1x1x768_1_0_0 : ∀ a, (![1, 0, 0] : Fin 3 → Nat) a + S1x1x768.size a ≤ S2x1x768.size a
  squeezes_S1x1x768_S1x768 : S1x1x768.Squeezes S1x768
  inb_S1x768_S1x768_0_0 : ∀ a, (![0, 0] : Fin 2 → Nat) a + S1x768.size a ≤ S1x768.size a
  h_S1x768 : 0 < S1x768.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S3072x1536 : Shape := ⟨2, ![3072, 1536]⟩
abbrev S_ : Shape := ⟨0, ![]⟩
abbrev S1536 : Shape := ⟨1, ![1536]⟩
abbrev S1x1536 : Shape := ⟨2, ![1, 1536]⟩

abbrev nBuf : Space → Nat
  | .hbm => 7
  | .vmem => 0
  | .smem => 0
  | _ => 0

abbrev bufTy : (tb : Table) → Fin (tcTables nBuf tb) → BufTy
  | .hbm, ⟨0, _⟩ => ⟨S3072x1536, .f32⟩
  | .hbm, ⟨1, _⟩ => ⟨S_, .f32⟩
  | .hbm, ⟨2, _⟩ => ⟨S1536, .f32⟩
  | .hbm, ⟨3, _⟩ => ⟨S1x1536, .f32⟩
  | .hbm, ⟨4, _⟩ => ⟨S_, .f32⟩
  | .hbm, ⟨5, _⟩ => ⟨S1x1536, .f32⟩
  | .hbm, ⟨6, _⟩ => ⟨S1x1536, .f32⟩
  | _, _ => ⟨S3072x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S3072x1536_S1536_d0 : S3072x1536.ReducesTo [0] S1536
  h_S_ : 0 < S_.numel
  bcast_S1536_S1x1536_1 : S1536.BroadcastsInDim S1x1536 (![1] : Fin 1 → Fin S1x1536.rank)
  bcast_S_S1x1536 : S_.BroadcastsInDim S1x1536 (![] : Fin 0 → Fin S1x1536.rank)

variable [Facts₀]

class Facts : Prop extends Facts₀ where

variable [Facts]
-- ==== Proof.KProto.lean ====
import proofs.«900957_g7700000000000958_dist_mean_ax0_xy_m1536_n768_v7x_xy2x2_bf16_1_alg».proof.Proof.Gen.Kernel
import proofs.«900957_g7700000000000958_dist_mean_ax0_xy_m1536_n768_v7x_xy2x2_bf16_1_alg».proof.Proof.Gen.Kernel.Skeleton
import proofs.«900957_g7700000000000958_dist_mean_ax0_xy_m1536_n768_v7x_xy2x2_bf16_1_alg».proof.Proof.Gen.Kernel.Launch
import proofs.«900957_g7700000000000958_dist_mean_ax0_xy_m1536_n768_v7x_xy2x2_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Writes
import Idealize.ShloMosaic.Lib.Tactic

/-!
# The exchange between a device and its partner: cells, contents, schedule

On the 2 x 2 mesh a device's partner is the device with the other row coordinate and the same column
coordinate. Each device writes the column sums of its block into slot 0 of a two-slot buffer, tells its
partner (one unit on the partner's barrier cell) that it is inside the kernel, waits for the partner's
unit, copies its slot 0 into the partner's slot 1, waits for its own copy to have been read and for the
partner's copy to have landed, and stores (slot 0 + slot 1) times the named constant.

Three cells per device, one duty each, all at round 0: the barrier cell (paid by the partner's signal; it
hands over the partner's slot 1 and the fact that the partner's receive cell is at round 0), the send cell
(paid by the device's own copy; it hands slot 0 back), the receive cell (paid by the partner's copy; it
hands over slot 1 holding the partner's column sums).
-/

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the pipeline's own and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def st0 : MemSt nD τ sig (Elt F) := ⟨m, fun _ => 0, ρ⟩

/-! ## The partner -/

/-- The device with the other row coordinate and the same column coordinate. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide
theorem peer_val (c : Dev nD) : (peer c).val = (c.val + 2) % 4 := rfl

/-- Both device chains of the body (the signal's and the copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## Memrefs and cells -/

abbrev xM : Memref sig .tc .vmem S1536x768 .f32 := Memref.whole cc0_stg0_0
abbrev oM : Memref sig .tc .vmem S1x768 .f32 := Memref.whole cc0_stg1_0
abbrev rM : Memref sig .tc .vmem S2x1x768 .f32 := Memref.whole cc0_scratch0

abbrev r0 : Rect S2x1x768 := Rect.unit (s := S2x1x768) ![0, 0, 0] S1x1x768.size inb_S2x1x768_S1x1x768_0_0_0
abbrev r1 : Rect S2x1x768 := Rect.unit (s := S2x1x768) ![1, 0, 0] S1x1x768.size inb_S2x1x768_S1x1x768_1_0_0

/-- Slot 0 (the device's own column sums; the copy's source) and slot 1 (where the partner's land), as the
    body slices and squeezes them. -/
abbrev slot0 : Memref sig .tc .vmem S1x768 .f32 := ((rM : Memref sig .tc .vmem S2x1x768 .f32).slice r0 (fun _ => rfl)).squeeze S1x768 squeezes_S1x1x768_S1x768
abbrev slot1 : Memref sig .tc .vmem S1x768 .f32 := ((rM : Memref sig .tc .vmem S2x1x768 .f32).slice r1 (fun _ => rfl)).squeeze S1x768 squeezes_S1x1x768_S1x768

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them; -/
abbrev osem : Fin 2 → SemLoc sig := fun | 0 => .dma sendS.sem | 1 => .dma recvS.sem
/-- all three of the exchange's. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (slot1 : Memref sig .tc .vmem S1x768 .f32).view.dmaCredit
theorem N_pos : 0 < N := View.dmaCredit_pos _ (by decide)

/-! ## Contents -/

/-- Device `c`'s block of the argument, as staged. -/
def xstg (c : Dev nD) : (cc0_stg0_0 : Ref sig .tc).ty.Contents (Elt F) :=
  (win0_0.blk (0 : Fin 1)).view.read (Elt F) ((st0 m ρ).mem ((c : Thread nD τ).loc main_arg0))

/-- Its column sums, as the body stores them (a 1 x 1 x 768 vector). -/
def rsum (c : Dev nD) : Vec F S1x1x768 .f32 := k0_pay2 (xstg m ρ c)

/-- Canonical contents of the two-slot buffer once slot 0 holds the column sums: elsewhere a fixed entry. -/
def G0 (c : Dev nD) : (cc0_scratch0 : Ref sig .tc).ty.Contents (Elt F) :=
  ((rM : Memref sig .tc .vmem S2x1x768 .f32).access r0).write (Elt F) (fun _ => rsum m ρ c (Shape.Idx.first h_S1x1x768)) (rsum m ρ c) Finset.univ

/-- Canonical contents once slot 1 also holds what the partner's copy lands: the partner's slot 0. -/
def G1 (c : Dev nD) : (cc0_scratch0 : Ref sig .tc).ty.Contents (Elt F) :=
  (slot1 : Memref sig .tc .vmem S1x768 .f32).view.write (Elt F) (G0 m ρ c)
    ((slot0 : Memref sig .tc .vmem S1x768 .f32).view.read (Elt F) (G0 m ρ (peer c))) Finset.univ

/-- The kernel's result on device `c`. -/
def outAt (c : Dev nD) : (cc0_stg1_0 : Ref sig .tc).ty.Contents (Elt F) := k0_pay1 (rsum m ρ c) (rsum m ρ (peer c))

/-! ## The two-slot buffer held by parts -/

abbrev SL (c : Dev nD) : Loc nD τ sig := (rM : Memref sig .tc .vmem S2x1x768 .f32).view.loc (c : Thread nD τ)
abbrev set0 (c : Dev nD) : Finset (Idx (SL c)) := (slot0 : Memref sig .tc .vmem S1x768 .f32).view.set
abbrev set1 (c : Dev nD) : Finset (Idx (SL c)) := (slot1 : Memref sig .tc .vmem S1x768 .f32).view.set
abbrev setR (c : Dev nD) : Finset (Idx (SL c)) := (Finset.univ \ set1 c) \ set0 c

omit [FloatOps F] in
theorem set0_eq (c : Dev nD) : set0 c = (r0 : Rect S2x1x768).set := by
  show ((View.whole cc0_scratch0 : View sig .tc _ _ _).slice r0 |>.reshape S1x768 _).set = _
  rw [View.set_reshape, View.set_slice_whole]
omit [FloatOps F] in
theorem set1_eq (c : Dev nD) : set1 c = (r1 : Rect S2x1x768).set := by
  show ((View.whole cc0_scratch0 : View sig .tc _ _ _).slice r1 |>.reshape S1x768 _).set = _
  rw [View.set_reshape, View.set_slice_whole]

omit [FloatOps F] in
/-- The two slots share no element: they differ in the first coordinate. -/
theorem slots_disjoint (c : Dev nD) : Disjoint (set0 c) (set1 c) := by
  rw [set0_eq, set1_eq]
  exact Rect.unit_disjoint (0 : Fin 3) (Or.inl (by decide))

omit [FloatOps F] in
theorem set0_sub (c : Dev nD) : set0 c ⊆ Finset.univ \ set1 c := fun i hi =>
  Finset.mem_sdiff.mpr ⟨Finset.mem_univ _, fun h1 => (Finset.disjoint_left.mp (slots_disjoint c) hi) h1⟩

def p0 (c : Dev nD) (f : Buf (Elt F) (SL c)) : sProp 𝕄 := SL c ↦[set0 c]{fullShare} f
def p1 (c : Dev nD) (f : Buf (Elt F) (SL c)) : sProp 𝕄 := SL c ↦[set1 c]{fullShare} f
def pR (c : Dev nD) (f : Buf (Elt F) (SL c)) : sProp 𝕄 := SL c ↦[setR c]{fullShare} f

omit [FloatOps F] in
/-- The whole buffer is slot 1, slot 0 and the rest. -/
theorem scr_split (c : Dev nD) (f : Buf (Elt F) (SL c)) :
    ((SL c ↦{fullShare} f) : sProp 𝕄) ⊢ iprop(p1 c f ∗ p0 c f ∗ pR c f) :=
  (BI.Region.is_split_subset (Finset.subset_univ (set1 c))).1.trans
    (sep_mono_right (BI.Region.is_split_subset (set0_sub c)).1)

omit [FloatOps F] in
/-- The three parts, at whatever contents, are the whole buffer at some contents. -/
theorem scr_join (c : Dev nD) (f1 f0 fr : Buf (Elt F) (SL c)) :
    iprop(p1 c f1 ∗ p0 c f0 ∗ pR c fr) ⊢ (∃ f, (SL c ↦{fullShare} f) : sProp 𝕄) := by
  unfold p1 p0 pR
  refine (sep_mono_right (BI.Region.is_join (Finset.disjoint_sdiff))).trans ?_
  rw [Finset.union_sdiff_of_subset (set0_sub c)]
  refine (BI.Region.is_join (Finset.disjoint_sdiff)).trans ?_
  rw [Finset.union_sdiff_of_subset (Finset.subset_univ _)]
  exact exists_intro _

omit [FloatOps F] in
/-- Two writes of one payload through one view agree on the view's elements, whatever was there. -/
theorem write_agree {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := fun i hi => by
  obtain ⟨y, rfl⟩ := View.exists_emb_of_mem_set v hi
  rw [View.write_emb_of_mem _ _ (Finset.mem_univ _), View.write_emb_of_mem _ _ (Finset.mem_univ _)]

/-- After the device's store, slot 0 holds the canonical contents. -/
theorem p0_after_store (c : Dev nD) (f : Buf (Elt F) (SL c)) :
    p0 c (((rM : Memref sig .tc .vmem S2x1x768 .f32).access r0).write (Elt F) f (rsum m ρ c) Finset.univ) = (p0 c (G0 m ρ c) : sProp 𝕄) := by
  unfold p0 G0
  refine BI.Region.is_congr fun i hi => ?_
  refine write_agree ((rM : Memref sig .tc .vmem S2x1x768 .f32).access r0) _ _ _ i ?_
  rw [set0_eq] at hi
  rw [show ((rM : Memref sig .tc .vmem S2x1x768 .f32).access r0).set = (r0 : Rect S2x1x768).set from View.set_slice_whole _ _]
  exact hi

/-- What a copy of the partner's slot 0 lands in slot 1 is the canonical contents, whatever slot 1 held. -/
theorem p1_landed (c : Dev nD) (fd : Buf (Elt F) (SL c)) :
    p1 c ((slot1 : Memref sig .tc .vmem S1x768 .f32).view.write (Elt F) fd
      ((slot0 : Memref sig .tc .vmem S1x768 .f32).view.read (Elt F) (G0 m ρ (peer c))) Finset.univ) = (p1 c (G1 m ρ c) : sProp 𝕄) := by
  unfold p1 G1
  exact BI.Region.is_congr fun i hi => write_agree (slot1 : Memref sig .tc .vmem S1x768 .f32).view _ _ _ i hi

/-! ## The schedule -/

/-- What the partner's signal hands device `c`: the partner's slot 1 (at some contents) and that the partner's
    receive cell is at round 0. -/
def barPay (c : Dev nD) : sProp 𝕄 := iprop((∃ f, p1 (peer c) f) ∗ reached ER (recvCell (peer c)) 0)
def recvPay (c : Dev nD) : sProp 𝕄 := p1 c (G1 m ρ c)
def sendPay (c : Dev nD) : sProp 𝕄 := p0 c (G0 m ρ c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: a barrier cell one unit, a send or receive cell the slot's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

omit [FloatOps F] in
instance p0_storable (c : Dev nD) (f) : BI.Storable (upEmb : UEmb _ 𝕄) (p0 (F := F) c f) := by unfold p0; infer_instance
omit [FloatOps F] in
instance p1_storable (c : Dev nD) (f) : BI.Storable (upEmb : UEmb _ 𝕄) (p1 (F := F) c f) := by unfold p1; infer_instance

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, .inl ⟨rfl, rfl⟩⟩
theorem duties_send : (sched (F := F) m ρ).duties (sendCell c) 0 = {()} := by dsimp only [sched]; exact if_pos ⟨rfl, .inr ⟨rfl, .inl rfl⟩⟩
theorem duties_recv : (sched (F := F) m ρ).duties (recvCell c) 0 = {()} := by dsimp only [sched]; exact if_pos ⟨rfl, .inr ⟨rfl, .inr rfl⟩⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its partner's receive cell the slot's credit and its partner's barrier cell one unit (the signal,
    first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging or send cell is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes only its partner's receive credit: a receive cell, above the barrier cells. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names the launch allocated them at: its own three, its
    partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The exchange's ghost state device `c` starts from: the invariants; its positions at round 0 of its three cells; round 0
    reached on the cells it pays and on its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What a body starts from: that at some names, the credit of its barrier cell's unit and of its receive cell, the levels. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, ((SL c ↦{fullShare} f) : sProp 𝕄))
/-- After the point: the two-slot buffer whole again (at some contents), the two own cells at zero, closed. -/
def Φ₁ (c : Dev nD) : sProp 𝕄 := iprop((∃ f, ((SL c ↦{fullShare} f) : sProp 𝕄)) ∗ semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body on device `c` starts from, the exchange's ghost state opened at its names `K`. -/
def bodyPre (K : Dev nD × Fin 3 → ℕ) (c : Dev nD) : sProp 𝕄 :=
  iprop((ghost m ρ K c ∗ cred (tallyAt (barCell c) () 1) ∗ cred (tallyAt (recvCell c) () N) ∗ levAts L lv ∗ ∃ f, ((SL c ↦{fullShare} f) : sProp 𝕄))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.Proto

end
-- ==== Proof.KBody.lean ====
import proofs.«900957_g7700000000000958_dist_mean_ax0_xy_m1536_n768_v7x_xy2x2_bf16_1_alg».proof.Proof.KProto

/-!
# One device's body, from the exchange's ghost state to its post

The device loads its block and stores the column sums into slot 0. The two-slot buffer is then held in three parts:
slot 1 goes to the partner with the signal (the partner's copy will land there), slot 0 is lent to the device's own
copy and comes back with the wait on the send cell, and the rest stays. The wait on the barrier cell brings the
partner's slot 1; the wait on the receive cell brings the device's own slot 1 back holding the partner's column
sums. The two slots are then read where they are held, the result is stored, and the three parts are the whole
buffer again.
-/

noncomputable section

namespace Cert.Kernel.Body

open Cert.Kernel Cert.Kernel.Gen Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 3 → ℕ)

omit [FloatOps F] in
/-- A whole buffer named by its reference is the same buffer named through its whole view. -/
theorem pts_view (c : Dev nD) (b : Ref sig .tc) (f : Buf (Elt F) ((c : Thread nD τ).loc b)) :
    ((((c : Thread nD τ).loc b) ↦{fullShare} f) : sProp 𝕄)
      = ((Memref.whole b : Memref sig .tc _ _ _).view.loc (c : Thread nD τ) ↦[(Memref.whole b : Memref sig .tc _ _ _).view.set]{fullShare} f) := by
  rw [View.set_whole]

omit [FloatOps F] in
theorem hz2 : (![0, 0] : Fin 2 → Nat) = fun _ => 0 := funext fun a => by fin_cases a <;> rfl

omit [FloatOps F] in
theorem read_x (f : (cc0_stg0_0 : Ref sig .tc).ty.Contents (Elt F)) :
    (xM : Memref sig .tc .vmem S1536x768 .f32).view.readAt (Elt F) (Rect.unit (s := S1536x768) ![0, 0] S1536x768.size inb_S1536x768_S1536x768_0_0).toLoadRect f = f :=
  Memref.readAt_unit_zero (Elt F) cc0_stg0_0 hz2 _ f

omit [FloatOps F] in
theorem write_out (f w : (cc0_stg1_0 : Ref sig .tc).ty.Contents (Elt F)) :
    ((oM : Memref sig .tc .vmem S1x768 .f32).access (Rect.unit (s := S1x768) ![0, 0] S1x768.size inb_S1x768_S1x768_0_0) : View sig .tc _ _ _).write (Elt F) f w Finset.univ = w :=
  Memref.write_access_unit_zero_univ (Elt F) cc0_stg1_0 hz2 _ f w

/-- After the store of the column sums the two-slot buffer is cut: slot 1 and the rest as they are, slot 0 at its
    canonical contents. -/
theorem scr_cut (c : Dev nD) (f0 : Buf (Elt F) (SL c)) (x' : Vec F S1536x768 .f32) (hx' : x' = xstg m ρ c) :
    ((View.loc (c : Thread nD τ) (rM : Memref sig .tc .vmem S2x1x768 .f32).view
        ↦[(rM : Memref sig .tc .vmem S2x1x768 .f32).view.set]{fullShare}
          ((rM : Memref sig .tc .vmem S2x1x768 .f32).view.writes (Elt F) f0 [⟨r0, k0_pay2 x'⟩])) : sProp 𝕄)
      ⊢ iprop(∃ f1, p1 c f1 ∗ p0 c (G0 m ρ c) ∗ pR c f1) := by
  subst hx'
  rw [View.writes_singleton, ← pts_view c cc0_scratch0]
  refine (scr_split c _).trans ?_
  rw [show k0_pay2 (xstg m ρ c) = rsum m ρ c from rfl, p0_after_store]
  exact exists_intro (Φ := fun f1 => iprop(p1 c f1 ∗ p0 c (G0 m ρ c) ∗ pR c f1)) _

/-- The signal's payload on the partner's barrier cell, the partner's partner resolved. -/
theorem payload_barP (c : Dev nD) (d : Unit) :
    (sched (F := F) m ρ).payload (barCell (peer c)) 0 d = iprop((∃ f, p1 c f) ∗ reached ER (recvCell c) 0) := by
  rw [payload_bar]; unfold barPay; rw [peer_peer]

theorem payload_barO (c : Dev nD) (d : Unit) :
    (sched (F := F) m ρ).payload (barCell c) 0 d
      = iprop((∃ f, ((SL (peer c) ↦[set1 (peer c)]{fullShare} f) : sProp 𝕄)) ∗ reached ER (recvCell (peer c)) 0) := by
  rw [payload_bar]; rfl
theorem payload_sendO (c : Dev nD) (d : Unit) :
    (sched (F := F) m ρ).payload (sendCell c) 0 d = ((SL c ↦[set0 c]{fullShare} G0 m ρ c) : sProp 𝕄) := by
  rw [payload_send]; rfl
theorem payload_recvO (c : Dev nD) (d : Unit) :
    (sched (F := F) m ρ).payload (recvCell c) 0 d = ((SL c ↦[set1 c]{fullShare} G1 m ρ c) : sProp 𝕄) := by
  rw [payload_recv]; rfl

set_option maxHeartbeats 3200000 in
/-- The copy of slot 0 into the partner's slot 1, addressed to a device `n` that is the partner: the send cell's duty is paid
    with slot 0 lent at its canonical contents, the partner's receive cell's duty with what lands, restated over the
    canonical contents whatever the partner's slot 1 held. -/
theorem wp_send_peer (c n : Dev nD) (hn : n = peer c)
    {hsc : (slot1 : Memref sig (Dev.tc n : Thread nD τ).2.kind .vmem S1x768 .f32).view.ref.isScScratch = false}
    {hsrc : (slot0 : Memref sig .tc .vmem S1x768 .f32).view.WordExact} {hdst : (slot1 : Memref sig .tc .vmem S1x768 .f32).view.WordExact}
    {hsem : DmaTarget.Typed .vmem (.dma recvS.sem) (.remote (Dev.tc n : Thread nD τ) (slot1 : Memref sig .tc .vmem S1x768 .f32) (.dma sendS.sem) hsc)}
    {α : Type} {Q : α → sProp 𝕄} {k : PUnit → Prog (TpuEff nD τ sig (Elt F) Λ₀ .tc) α}
    (fn : Buf (Elt F) (SL (peer c))) (W : Waits sig Unit) :
    iprop(cellInv ER (sched m ρ) (K (c, 1)) (sendCell c) ∗ cellInv ER (sched m ρ) (K (peer c, 2)) (recvCell (peer c))
        ∗ p0 c (G0 m ρ c) ∗ (SL (peer c) ↦[set1 (peer c)]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold p0
  exact Rounds.wp_send_pointsTo 𝒱₀ ER (sched m ρ) (c : Thread nD τ) none (c' := (peer c : Thread nD τ))
    (src := (slot0 : Memref sig .tc .vmem S1x768 .f32)) (dst := (slot1 : Memref sig .tc .vmem S1x768 .f32)) (q := fullShare)
    (fs := G0 m ρ c) (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay; rw [← p1_landed m ρ (peer c) fn, peer_peer]; unfold p1; exact BI.Entails.refl _)

omit [FloatOps F] in
theorem sub0 (c : Dev nD) : (rM : Memref sig .tc .vmem S2x1x768 .f32).view.setOn (r0 : Rect S2x1x768).toLoadRect.set ⊆ set0 c := by
  rw [set0_eq]; intro i hi
  obtain ⟨y, hy, rfl⟩ := Finset.mem_map.mp hi
  exact hy
omit [FloatOps F] in
theorem sub1 (c : Dev nD) : (rM : Memref sig .tc .vmem S2x1x768 .f32).view.setOn (r1 : Rect S2x1x768).toLoadRect.set ⊆ set1 c := by
  rw [set1_eq]; intro i hi
  obtain ⟨y, hy, rfl⟩ := Finset.mem_map.mp hi
  exact hy

/-- Slot 0 at its canonical contents reads the column sums. -/
theorem read_slot0 (c : Dev nD) :
    (rM : Memref sig .tc .vmem S2x1x768 .f32).view.readAt (Elt F) (r0 : Rect S2x1x768).toLoadRect (G0 m ρ c) = rsum m ρ c := by
  show ((rM : Memref sig .tc .vmem S2x1x768 .f32).access r0).read (Elt F) (G0 m ρ c) = _
  unfold G0
  exact View.read_write_univ _ _

/-- Slot 1 at its canonical contents reads the partner's column sums: what was written through the squeezed slot, read
    through the slot, is the partner's slot 0 read through the slot. -/
theorem read_slot1 (c : Dev nD) :
    (rM : Memref sig .tc .vmem S2x1x768 .f32).view.readAt (Elt F) (r1 : Rect S2x1x768).toLoadRect (G1 m ρ c) = rsum m ρ (peer c) := by
  show ((rM : Memref sig .tc .vmem S2x1x768 .f32).access r1).read (Elt F) (G1 m ρ c) = _
  unfold G1
  have e : (slot1 : Memref sig .tc .vmem S1x768 .f32).view.write (Elt F) (G0 m ρ c)
        ((slot0 : Memref sig .tc .vmem S1x768 .f32).view.read (Elt F) (G0 m ρ (peer c))) Finset.univ
      = ((rM : Memref sig .tc .vmem S2x1x768 .f32).access r1).write (Elt F) (G0 m ρ c)
          (fun x => (slot0 : Memref sig .tc .vmem S1x768 .f32).view.read (Elt F) (G0 m ρ (peer c))
            ((Shape.reshapeEquiv squeezes_S1x1x768_S1x768.numel_eq).symm x)) Finset.univ :=
    View.write_reshape_univ ((rM : Memref sig .tc .vmem S2x1x768 .f32).access r1) squeezes_S1x1x768_S1x768.numel_eq _ _
  rw [e, View.read_write_univ]
  funext x
  show ((rM : Memref sig .tc .vmem S2x1x768 .f32).access r0).read (Elt F) (G0 m ρ (peer c))
    (Shape.reshapeEquiv squeezes_S1x1x768_S1x768.numel_eq ((Shape.reshapeEquiv squeezes_S1x1x768_S1x768.numel_eq).symm x)) = _
  rw [Equiv.apply_symm_apply]
  unfold G0
  exact congrFun (View.read_write_univ _ _) x

attribute [local sl_rounds] duties_bar duties_send duties_recv amount_bar amount_send amount_recv expect_bar expect_send expect_recv
  payload_barO payload_sendO payload_recvO

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret]
  unfold bodyPre ghost Proto.invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hxv := (Entails.of_eq (pts_view c cc0_stg0_0 _)) $$ Hx
  ihave Houtv := (Entails.of_eq (pts_view c cc0_stg1_0 _)) $$ Hout
  ihave Hscrv := (Entails.of_eq (pts_view c cc0_scratch0 _)) $$ Hscr
  -- the local steps: the block loaded, slot 0 loaded and overwritten with the column sums
  sl_exec
  -- the buffer cut into its slots
  ihave Hcut := (scr_cut m ρ c f0 _ (read_x _)) $$ Hscrv
  icases Hcut with ⟨%f1, H1, H0, HR⟩
  -- the signal to the partner's barrier cell: slot 1 goes with it, and that the receive cell is at round 0
  simp only [dev1_eq c, dev2_eq c]
  iapply (Rounds.wp_signal 𝒱₀ ER (sched m ρ) (c : Thread nD τ) none (dst := (peer c : Thread nD τ)) (κ := K (peer c, 0))
      (d := ()) (by rw [duties_bar]; exact Finset.mem_singleton_self _) ((amount_bar m ρ (peer c) ()).trans (by decide)) ()
      (tallyAt (recvCell (peer c)) () N) rfl) $$ [HO HtBP H1]
  · isplitr; · iexact HIbarP
    isplitl [HO]; · iexact HO
    isplitl [HtBP]; · iexact HtBP
    isplitl [H1]
    · rw [payload_barP]
      isplitl [H1]; · iexists f1; iexact H1
      iexact HrV
    · iexact HrBP
  iintro HO
  -- the wait on its own barrier cell, owing the partner's receive credit
  have hmw := mayWait_bar (F := F) c
  sl_exec
  -- the copy of slot 0 into the partner's slot 1
  iapply (wp_send_peer m ρ K c _ (dev2_eq c) HatB_pay1_v _) $$ [H0 HatB_pay1 HO HtS HtVP]
  · isplitr; · iexact HIsnd
    isplitr; · iexact HIrcvP
    isplitl [H0]; · iexact H0
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- the waits on its send cell (slot 0 back) and on its receive cell (slot 1 holding the partner's column sums)
  sl_exec
  -- the two own cells close: their counters at zero are the device's again
  imod (Rounds.cell_close ER (sched m ρ) (Set.mem_univ (K (c, 1))) (fun h => h) (R := 1) (duties_later m ρ (sendCell c))) $$ [HatS] with HzS
  · isplitr; · iexact HIsnd
    iexact HatS
  imod (Rounds.cell_close ER (sched m ρ) (Set.mem_univ (K (c, 2))) (fun h => h) (R := 1) (duties_later m ρ (recvCell c))) $$ [HatV] with HzV
  · isplitr; · iexact HIrcv
    iexact HatV
  -- the two slots loaded, each from the part that holds it
  iapply (wp_load 𝒱₀ (c : Thread nD τ) none Set.univ (m := (rM : Memref sig .tc .vmem S2x1x768 .f32)) (S := set0 c) (sub0 c)) $$ HatS_pay1; iintro H0
  rw [read_slot0]
  iapply (wp_load 𝒱₀ (c : Thread nD τ) none Set.univ (m := (rM : Memref sig .tc .vmem S2x1x768 .f32)) (S := set1 c) (sub1 c)) $$ HatV_pay1; iintro H1
  rw [read_slot1]
  -- the result loaded and stored
  ihave Houtw := (Entails.of_eq (show ((View.loc (c : Thread nD τ) (View.whole cc0_stg1_0 : View sig .tc _ _ _)
      ↦[(View.whole cc0_stg1_0 : View sig .tc _ _ _).set]{fullShare} g1) : sProp 𝕄)
    = ((oM : Memref sig .tc .vmem S1x768 .f32).view.loc (c : Thread nD τ) ↦[(oM : Memref sig .tc .vmem S1x768 .f32).view.set]{fullShare} g1) from rfl)) $$ Houtv
  sl_exec
  rw [wp_ret]; imodintro
  iapply Hk
  unfold bodyPost Φ₁ Dat.owesAt Pipeline.owesWithin
  rw [show (dats m ρ 0 c).owed t₀.succ = 0 from rfl]
  ihave Hx2 := (Entails.of_eq (pts_view c cc0_stg0_0 _).symm) $$ Hxv
  ihave Ho2 := (Entails.of_eq (pts_view c cc0_stg1_0 _).symm) $$ Houtw
  isplitl [H1 H0 HR HzS HzV]
  · isplitl [H1 H0 HR]
    · -- the three parts are the whole buffer again
      iapply (scr_join c (G1 m ρ c) (G0 m ρ c) f1)
      unfold p1 p0
      isplitl [H1]; · iexact H1
      isplitl [H0]; · iexact H0
      iexact HR
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx2]
  · iexists _; isplitr; · (ipureintro; rfl)
    iexact Hx2
  iexists _; isplitr
  · ipureintro
    show ((oM : Memref sig .tc .vmem S1x768 .f32).access (Rect.unit (s := S1x768) ![0, 0] S1x768.size inb_S1x768_S1x768_0_0) : View sig .tc _ _ _).write (Elt F) g1
      (k0_pay1 (rsum m ρ c) (rsum m ρ (peer c))) Finset.univ = outAt m ρ c
    exact write_out g1 _
  iexact Ho2

/-- info: 'Cert.Kernel.Body.sound_body' depends on axioms: [propext, Classical.choice, Quot.sound] -/
#guard_msgs in #print axioms sound_body

end Cert.Kernel.Body

end
-- ==== Proof.KLaunch.lean ====
import proofs.«900957_g7700000000000958_dist_mean_ax0_xy_m1536_n768_v7x_xy2x2_bf16_1_alg».proof.Proof.KBody

/-!
# The run of the kernel on the mesh

The exchange's cells are funded at launch, every cell's invariant is allocated in one global step (the barrier
cell is touched by two devices), the duty tokens are dealt between partners, and the launch theorem turns the
body's proof on each device into the run of the program. Every weakly fair execution of the four devices'
kernels terminates, faults nowhere, leaves each device's argument block unchanged and its result array at
(own column sums + partner's column sums) times the named constant.
-/

noncomputable section

namespace Cert.Kernel.Launch

open Cert.Kernel Cert.Kernel.Gen Cert.Kernel.Proto Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost Proto.invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt between partners: a barrier cell's and a receive cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the four kernels terminates, and every final state has
    each window's array at the proof data's final contents. -/
theorem run_arrays : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

theorem hzOut : (fun a => (win0_1.index (t₀ : Fin cfg0.N)) a * (main_v1 : Ref sig .tc).ty.shape.size a) = fun _ => 0 :=
  funext fun a => Nat.zero_mul _

/-- The result array after the run holds the kernel's result: the one point writes the whole block back. -/
theorem finalA_out (c : Dev nD) : finalA m ρ c (1 : Fin 2) = outAt m ρ c := by
  unfold finalA
  show (dats m ρ 0 c).arrAt (1 : Fin 2) ((t₀ : Fin cfg0.N).val + 1) = _
  rw [Dat.arrAt_succ, if_pos (flush0_1 t₀)]
  exact Memref.write_access_unit_zero_univ (Elt F) main_v1 hzOut _ _ _

/-- Every weakly fair execution of the four devices' kernels terminates, faults nowhere, leaves each device's argument block
    unchanged and its result array at (own column sums + partner's column sums) times the named constant. -/
theorem run_main : θ_run defs (onTc (τ := τ) (main (F := F))) (st0 m ρ) (fun r => ∀ c : Dev nD,
    r.2.mem ((c : Thread nD τ).loc main_v1) = outAt m ρ c
    ∧ r.2.mem ((c : Thread nD τ).loc main_arg0) = m ((c : Thread nD τ).loc main_arg0)) :=
  (θ_run defs _ _).mono (fun _ h c => ⟨(h c (1 : Fin 2)).trans (finalA_out m ρ c), (h c (0 : Fin 2)).trans (finalA_x m ρ c)⟩) (run_arrays m ρ)

/-- info: 'Cert.Kernel.Launch.run_main' depends on axioms: [propext, Classical.choice, Quot.sound] -/
#guard_msgs in #print axioms run_main

end Cert.Kernel.Launch

end
-- ==== Proof.KiProto.lean ====
import proofs.«900957_g7700000000000958_dist_mean_ax0_xy_m1536_n768_v7x_xy2x2_bf16_1_alg».proof.Proof.Gen.KernelIdeal
import proofs.«900957_g7700000000000958_dist_mean_ax0_xy_m1536_n768_v7x_xy2x2_bf16_1_alg».proof.Proof.Gen.KernelIdeal.Skeleton
import proofs.«900957_g7700000000000958_dist_mean_ax0_xy_m1536_n768_v7x_xy2x2_bf16_1_alg».proof.Proof.Gen.KernelIdeal.Launch
import proofs.«900957_g7700000000000958_dist_mean_ax0_xy_m1536_n768_v7x_xy2x2_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Writes
import Idealize.ShloMosaic.Lib.Tactic

/-!
# The exchange between a device and its partner: cells, contents, schedule

On the 2 x 2 mesh a device's partner is the device with the other row coordinate and the same column
coordinate. Each device writes the column sums of its block into slot 0 of a two-slot buffer, tells its
partner (one unit on the partner's barrier cell) that it is inside the kernel, waits for the partner's
unit, copies its slot 0 into the partner's slot 1, waits for its own copy to have been read and for the
partner's copy to have landed, and stores (slot 0 + slot 1) times the named constant.

Three cells per device, one duty each, all at round 0: the barrier cell (paid by the partner's signal; it
hands over the partner's slot 1 and the fact that the partner's receive cell is at round 0), the send cell
(paid by the device's own copy; it hands slot 0 back), the receive cell (paid by the partner's copy; it
hands over slot 1 holding the partner's column sums).
-/

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Two resource algebras side by side: the pipeline's own and the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def st0 : MemSt nD τ sig (Elt F) := ⟨m, fun _ => 0, ρ⟩

/-! ## The partner -/

/-- The device with the other row coordinate and the same column coordinate. -/
def peer (c : Dev nD) : Dev nD := ⟨(c.val + 2) % 4, Nat.mod_lt _ (by decide)⟩

theorem peer_peer (c : Dev nD) : peer (peer c) = c := by revert c; decide
theorem peer_ne (c : Dev nD) : peer c ≠ c := by revert c; decide
theorem peer_val (c : Dev nD) : (peer c).val = (c.val + 2) % 4 := rfl

/-- Both device chains of the body (the signal's and the copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## Memrefs and cells -/

abbrev xM : Memref sig .tc .vmem S1536x768 .f32 := Memref.whole cc0_stg0_0
abbrev oM : Memref sig .tc .vmem S1x768 .f32 := Memref.whole cc0_stg1_0
abbrev rM : Memref sig .tc .vmem S2x1x768 .f32 := Memref.whole cc0_scratch0

abbrev r0 : Rect S2x1x768 := Rect.unit (s := S2x1x768) ![0, 0, 0] S1x1x768.size inb_S2x1x768_S1x1x768_0_0_0
abbrev r1 : Rect S2x1x768 := Rect.unit (s := S2x1x768) ![1, 0, 0] S1x1x768.size inb_S2x1x768_S1x1x768_1_0_0

/-- Slot 0 (the device's own column sums; the copy's source) and slot 1 (where the partner's land), as the
    body slices and squeezes them. -/
abbrev slot0 : Memref sig .tc .vmem S1x768 .f32 := ((rM : Memref sig .tc .vmem S2x1x768 .f32).slice r0 (fun _ => rfl)).squeeze S1x768 squeezes_S1x1x768_S1x768
abbrev slot1 : Memref sig .tc .vmem S1x768 .f32 := ((rM : Memref sig .tc .vmem S2x1x768 .f32).slice r1 (fun _ => rfl)).squeeze S1x768 squeezes_S1x1x768_S1x768

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them; -/
abbrev osem : Fin 2 → SemLoc sig := fun | 0 => .dma sendS.sem | 1 => .dma recvS.sem
/-- all three of the exchange's. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (slot1 : Memref sig .tc .vmem S1x768 .f32).view.dmaCredit
theorem N_pos : 0 < N := View.dmaCredit_pos _ (by decide)

/-! ## Contents -/

/-- Device `c`'s block of the argument, as staged. -/
def xstg (c : Dev nD) : (cc0_stg0_0 : Ref sig .tc).ty.Contents (Elt F) :=
  (win0_0.blk (0 : Fin 1)).view.read (Elt F) ((st0 m ρ).mem ((c : Thread nD τ).loc main_arg0))

/-- Its column sums, as the body stores them (a 1 x 1 x 768 vector). -/
def rsum (c : Dev nD) : Vec F S1x1x768 .f32 := k0_pay2 (xstg m ρ c)

/-- Canonical contents of the two-slot buffer once slot 0 holds the column sums: elsewhere a fixed entry. -/
def G0 (c : Dev nD) : (cc0_scratch0 : Ref sig .tc).ty.Contents (Elt F) :=
  ((rM : Memref sig .tc .vmem S2x1x768 .f32).access r0).write (Elt F) (fun _ => rsum m ρ c (Shape.Idx.first h_S1x1x768)) (rsum m ρ c) Finset.univ

/-- Canonical contents once slot 1 also holds what the partner's copy lands: the partner's slot 0. -/
def G1 (c : Dev nD) : (cc0_scratch0 : Ref sig .tc).ty.Contents (Elt F) :=
  (slot1 : Memref sig .tc .vmem S1x768 .f32).view.write (Elt F) (G0 m ρ c)
    ((slot0 : Memref sig .tc .vmem S1x768 .f32).view.read (Elt F) (G0 m ρ (peer c))) Finset.univ

/-- The kernel's result on device `c`. -/
def outAt (c : Dev nD) : (cc0_stg1_0 : Ref sig .tc).ty.Contents (Elt F) := k0_pay1 (rsum m ρ c) (rsum m ρ (peer c))

/-! ## The two-slot buffer held by parts -/

abbrev SL (c : Dev nD) : Loc nD τ sig := (rM : Memref sig .tc .vmem S2x1x768 .f32).view.loc (c : Thread nD τ)
abbrev set0 (c : Dev nD) : Finset (Idx (SL c)) := (slot0 : Memref sig .tc .vmem S1x768 .f32).view.set
abbrev set1 (c : Dev nD) : Finset (Idx (SL c)) := (slot1 : Memref sig .tc .vmem S1x768 .f32).view.set
abbrev setR (c : Dev nD) : Finset (Idx (SL c)) := (Finset.univ \ set1 c) \ set0 c

omit [FloatOps F] [Named F] in
theorem set0_eq (c : Dev nD) : set0 c = (r0 : Rect S2x1x768).set := by
  show ((View.whole cc0_scratch0 : View sig .tc _ _ _).slice r0 |>.reshape S1x768 _).set = _
  rw [View.set_reshape, View.set_slice_whole]
omit [FloatOps F] [Named F] in
theorem set1_eq (c : Dev nD) : set1 c = (r1 : Rect S2x1x768).set := by
  show ((View.whole cc0_scratch0 : View sig .tc _ _ _).slice r1 |>.reshape S1x768 _).set = _
  rw [View.set_reshape, View.set_slice_whole]

omit [FloatOps F] [Named F] in
/-- The two slots share no element: they differ in the first coordinate. -/
theorem slots_disjoint (c : Dev nD) : Disjoint (set0 c) (set1 c) := by
  rw [set0_eq, set1_eq]
  exact Rect.unit_disjoint (0 : Fin 3) (Or.inl (by decide))

omit [FloatOps F] [Named F] in
theorem set0_sub (c : Dev nD) : set0 c ⊆ Finset.univ \ set1 c := fun i hi =>
  Finset.mem_sdiff.mpr ⟨Finset.mem_univ _, fun h1 => (Finset.disjoint_left.mp (slots_disjoint c) hi) h1⟩

def p0 (c : Dev nD) (f : Buf (Elt F) (SL c)) : sProp 𝕄 := SL c ↦[set0 c]{fullShare} f
def p1 (c : Dev nD) (f : Buf (Elt F) (SL c)) : sProp 𝕄 := SL c ↦[set1 c]{fullShare} f
def pR (c : Dev nD) (f : Buf (Elt F) (SL c)) : sProp 𝕄 := SL c ↦[setR c]{fullShare} f

omit [FloatOps F] [Named F] in
/-- The whole buffer is slot 1, slot 0 and the rest. -/
theorem scr_split (c : Dev nD) (f : Buf (Elt F) (SL c)) :
    ((SL c ↦{fullShare} f) : sProp 𝕄) ⊢ iprop(p1 c f ∗ p0 c f ∗ pR c f) :=
  (BI.Region.is_split_subset (Finset.subset_univ (set1 c))).1.trans
    (sep_mono_right (BI.Region.is_split_subset (set0_sub c)).1)

omit [FloatOps F] [Named F] in
/-- The three parts, at whatever contents, are the whole buffer at some contents. -/
theorem scr_join (c : Dev nD) (f1 f0 fr : Buf (Elt F) (SL c)) :
    iprop(p1 c f1 ∗ p0 c f0 ∗ pR c fr) ⊢ (∃ f, (SL c ↦{fullShare} f) : sProp 𝕄) := by
  unfold p1 p0 pR
  refine (sep_mono_right (BI.Region.is_join (Finset.disjoint_sdiff))).trans ?_
  rw [Finset.union_sdiff_of_subset (set0_sub c)]
  refine (BI.Region.is_join (Finset.disjoint_sdiff)).trans ?_
  rw [Finset.union_sdiff_of_subset (Finset.subset_univ _)]
  exact exists_intro _

omit [FloatOps F] [Named F] in
/-- Two writes of one payload through one view agree on the view's elements, whatever was there. -/
theorem write_agree {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := fun i hi => by
  obtain ⟨y, rfl⟩ := View.exists_emb_of_mem_set v hi
  rw [View.write_emb_of_mem _ _ (Finset.mem_univ _), View.write_emb_of_mem _ _ (Finset.mem_univ _)]

/-- After the device's store, slot 0 holds the canonical contents. -/
theorem p0_after_store (c : Dev nD) (f : Buf (Elt F) (SL c)) :
    p0 c (((rM : Memref sig .tc .vmem S2x1x768 .f32).access r0).write (Elt F) f (rsum m ρ c) Finset.univ) = (p0 c (G0 m ρ c) : sProp 𝕄) := by
  unfold p0 G0
  refine BI.Region.is_congr fun i hi => ?_
  refine write_agree ((rM : Memref sig .tc .vmem S2x1x768 .f32).access r0) _ _ _ i ?_
  rw [set0_eq] at hi
  rw [show ((rM : Memref sig .tc .vmem S2x1x768 .f32).access r0).set = (r0 : Rect S2x1x768).set from View.set_slice_whole _ _]
  exact hi

/-- What a copy of the partner's slot 0 lands in slot 1 is the canonical contents, whatever slot 1 held. -/
theorem p1_landed (c : Dev nD) (fd : Buf (Elt F) (SL c)) :
    p1 c ((slot1 : Memref sig .tc .vmem S1x768 .f32).view.write (Elt F) fd
      ((slot0 : Memref sig .tc .vmem S1x768 .f32).view.read (Elt F) (G0 m ρ (peer c))) Finset.univ) = (p1 c (G1 m ρ c) : sProp 𝕄) := by
  unfold p1 G1
  exact BI.Region.is_congr fun i hi => write_agree (slot1 : Memref sig .tc .vmem S1x768 .f32).view _ _ _ i hi

/-! ## The schedule -/

/-- What the partner's signal hands device `c`: the partner's slot 1 (at some contents) and that the partner's
    receive cell is at round 0. -/
def barPay (c : Dev nD) : sProp 𝕄 := iprop((∃ f, p1 (peer c) f) ∗ reached ER (recvCell (peer c)) 0)
def recvPay (c : Dev nD) : sProp 𝕄 := p1 c (G1 m ρ c)
def sendPay (c : Dev nD) : sProp 𝕄 := p0 c (G0 m ρ c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: a barrier cell one unit, a send or receive cell the slot's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

omit [FloatOps F] [Named F] in
instance p0_storable (c : Dev nD) (f) : BI.Storable (upEmb : UEmb _ 𝕄) (p0 (F := F) c f) := by unfold p0; infer_instance
omit [FloatOps F] [Named F] in
instance p1_storable (c : Dev nD) (f) : BI.Storable (upEmb : UEmb _ 𝕄) (p1 (F := F) c f) := by unfold p1; infer_instance

instance sched_payload_storable (g : GSem nD τ sig) (r : ℕ) (d : Unit) :
    BI.Storable (upEmb : UEmb _ 𝕄) ((sched (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m ρ).duties (barCell c) 0 = {()} := by dsimp only [sched]; exact if_pos ⟨rfl, .inl ⟨rfl, rfl⟩⟩
theorem duties_send : (sched (F := F) m ρ).duties (sendCell c) 0 = {()} := by dsimp only [sched]; exact if_pos ⟨rfl, .inr ⟨rfl, .inl rfl⟩⟩
theorem duties_recv : (sched (F := F) m ρ).duties (recvCell c) 0 = {()} := by dsimp only [sched]; exact if_pos ⟨rfl, .inr ⟨rfl, .inr rfl⟩⟩
theorem duties_later (g : GSem nD τ sig) : ∀ r, 1 ≤ r → (sched (F := F) m ρ).duties g r = ∅ :=
  fun r hr => by dsimp only [sched]; rw [if_neg fun h => by omega]

theorem amount_bar (d : Unit) : (sched (F := F) m ρ).amount (barCell c) 0 d = 1 := by dsimp only [sched]; exact if_pos rfl
theorem amount_send (d : Unit) : (sched (F := F) m ρ).amount (sendCell c) 0 d = N := by dsimp only [sched]; exact if_neg send_ne_bar
theorem amount_recv (d : Unit) : (sched (F := F) m ρ).amount (recvCell c) 0 d = N := by dsimp only [sched]; exact if_neg recv_ne_bar

theorem expect_bar : (sched (F := F) m ρ).expect (barCell c) 0 = 1 := by
  unfold Schedule.expect Schedule.amountOf; rw [duties_bar, Finset.sum_singleton, amount_bar]
theorem expect_send : (sched (F := F) m ρ).expect (sendCell c) 0 = N := by
  unfold Schedule.expect Schedule.amountOf; rw [duties_send, Finset.sum_singleton, amount_send]
theorem expect_recv : (sched (F := F) m ρ).expect (recvCell c) 0 = N := by
  unfold Schedule.expect Schedule.amountOf; rw [duties_recv, Finset.sum_singleton, amount_recv]

theorem payload_bar (d : Unit) : (sched (F := F) m ρ).payload (barCell c) 0 d = barPay c := by dsimp only [sched]; rw [if_pos rfl]
theorem payload_send (d : Unit) : (sched (F := F) m ρ).payload (sendCell c) 0 d = sendPay m ρ c := by
  dsimp only [sched]; rw [if_neg send_ne_bar, if_neg send_ne_recv, if_pos rfl]
theorem payload_recv (d : Unit) : (sched (F := F) m ρ).payload (recvCell c) 0 d = recvPay m ρ c := by
  dsimp only [sched]; rw [if_neg recv_ne_bar, if_pos rfl]

theorem rest_bar : bigSep ((sched (F := F) m ρ).duties (barCell c) 0 \ ∅) (fun d => (sched (F := F) m ρ).payload (barCell c) 0 d) = barPay c := by
  rw [Finset.sdiff_empty, duties_bar, bigSep_singleton, payload_bar]
theorem rest_send : bigSep ((sched (F := F) m ρ).duties (sendCell c) 0 \ ∅) (fun d => (sched (F := F) m ρ).payload (sendCell c) 0 d) = sendPay m ρ c := by
  rw [Finset.sdiff_empty, duties_send, bigSep_singleton, payload_send]
theorem rest_recv : bigSep ((sched (F := F) m ρ).duties (recvCell c) 0 \ ∅) (fun d => (sched (F := F) m ρ).payload (recvCell c) 0 d) = recvPay m ρ c := by
  rw [Finset.sdiff_empty, duties_recv, bigSep_singleton, payload_recv]

end Sched

/-! ## What each device owes at launch; the levels -/

/-- Device `c` owes its partner's receive cell the slot's credit and its partner's barrier cell one unit (the signal,
    first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] [Named F] in
/-- A wait on a staging or send cell is below everything a device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] [Named F] in
/-- At its barrier wait a device owes only its partner's receive credit: a receive cell, above the barrier cells. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names the launch allocated them at: its own three, its
    partner's barrier cell (its signal) and its partner's receive cell (its copy). -/
def invs (K : Dev nD × Fin 3 → ℕ) (c : Dev nD) : sProp 𝕄 :=
  iprop(cellInv ER (sched m ρ) (K (c, 0)) (barCell c) ∗ cellInv ER (sched m ρ) (K (c, 1)) (sendCell c) ∗ cellInv ER (sched m ρ) (K (c, 2)) (recvCell c)
    ∗ cellInv ER (sched m ρ) (K (peer c, 0)) (barCell (peer c)) ∗ cellInv ER (sched m ρ) (K (peer c, 2)) (recvCell (peer c)))

instance invs_persistent (K : Dev nD × Fin 3 → ℕ) (c : Dev nD) : BI.Persistent (invs m ρ K c) := by unfold invs; infer_instance

/-- The exchange's ghost state device `c` starts from: the invariants; its positions at round 0 of its three cells; round 0
    reached on the cells it pays and on its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What a body starts from: that at some names, the credit of its barrier cell's unit and of its receive cell, the levels. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ ∃ f, ((SL c ↦{fullShare} f) : sProp 𝕄))
/-- After the point: the two-slot buffer whole again (at some contents), the two own cells at zero, closed. -/
def Φ₁ (c : Dev nD) : sProp 𝕄 := iprop((∃ f, ((SL c ↦{fullShare} f) : sProp 𝕄)) ∗ semVal (sendCell c) 0 ∗ semVal (recvCell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] [Named F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body on device `c` starts from, the exchange's ghost state opened at its names `K`. -/
def bodyPre (K : Dev nD × Fin 3 → ℕ) (c : Dev nD) : sProp 𝕄 :=
  iprop((ghost m ρ K c ∗ cred (tallyAt (barCell c) () 1) ∗ cred (tallyAt (recvCell c) () N) ∗ levAts L lv ∗ ∃ f, ((SL c ↦{fullShare} f) : sProp 𝕄))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.Proto

end
-- ==== Proof.KiBody.lean ====
import proofs.«900957_g7700000000000958_dist_mean_ax0_xy_m1536_n768_v7x_xy2x2_bf16_1_alg».proof.Proof.KiProto

/-!
# One device's body, from the exchange's ghost state to its post

The device loads its block and stores the column sums into slot 0. The two-slot buffer is then held in three parts:
slot 1 goes to the partner with the signal (the partner's copy will land there), slot 0 is lent to the device's own
copy and comes back with the wait on the send cell, and the rest stays. The wait on the barrier cell brings the
partner's slot 1; the wait on the receive cell brings the device's own slot 1 back holding the partner's column
sums. The two slots are then read where they are held, the result is stored, and the three parts are the whole
buffer again.
-/

noncomputable section

namespace Cert.KernelIdeal.Body

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 3 → ℕ)

omit [FloatOps F] [Named F] in
/-- A whole buffer named by its reference is the same buffer named through its whole view. -/
theorem pts_view (c : Dev nD) (b : Ref sig .tc) (f : Buf (Elt F) ((c : Thread nD τ).loc b)) :
    ((((c : Thread nD τ).loc b) ↦{fullShare} f) : sProp 𝕄)
      = ((Memref.whole b : Memref sig .tc _ _ _).view.loc (c : Thread nD τ) ↦[(Memref.whole b : Memref sig .tc _ _ _).view.set]{fullShare} f) := by
  rw [View.set_whole]

omit [FloatOps F] [Named F] in
theorem hz2 : (![0, 0] : Fin 2 → Nat) = fun _ => 0 := funext fun a => by fin_cases a <;> rfl

omit [FloatOps F] [Named F] in
theorem read_x (f : (cc0_stg0_0 : Ref sig .tc).ty.Contents (Elt F)) :
    (xM : Memref sig .tc .vmem S1536x768 .f32).view.readAt (Elt F) (Rect.unit (s := S1536x768) ![0, 0] S1536x768.size inb_S1536x768_S1536x768_0_0).toLoadRect f = f :=
  Memref.readAt_unit_zero (Elt F) cc0_stg0_0 hz2 _ f

omit [FloatOps F] [Named F] in
theorem write_out (f w : (cc0_stg1_0 : Ref sig .tc).ty.Contents (Elt F)) :
    ((oM : Memref sig .tc .vmem S1x768 .f32).access (Rect.unit (s := S1x768) ![0, 0] S1x768.size inb_S1x768_S1x768_0_0) : View sig .tc _ _ _).write (Elt F) f w Finset.univ = w :=
  Memref.write_access_unit_zero_univ (Elt F) cc0_stg1_0 hz2 _ f w

/-- After the store of the column sums the two-slot buffer is cut: slot 1 and the rest as they are, slot 0 at its
    canonical contents. -/
theorem scr_cut (c : Dev nD) (f0 : Buf (Elt F) (SL c)) (x' : Vec F S1536x768 .f32) (hx' : x' = xstg m ρ c) :
    ((View.loc (c : Thread nD τ) (rM : Memref sig .tc .vmem S2x1x768 .f32).view
        ↦[(rM : Memref sig .tc .vmem S2x1x768 .f32).view.set]{fullShare}
          ((rM : Memref sig .tc .vmem S2x1x768 .f32).view.writes (Elt F) f0 [⟨r0, k0_pay2 x'⟩])) : sProp 𝕄)
      ⊢ iprop(∃ f1, p1 c f1 ∗ p0 c (G0 m ρ c) ∗ pR c f1) := by
  subst hx'
  rw [View.writes_singleton, ← pts_view c cc0_scratch0]
  refine (scr_split c _).trans ?_
  rw [show k0_pay2 (xstg m ρ c) = rsum m ρ c from rfl, p0_after_store]
  exact exists_intro (Φ := fun f1 => iprop(p1 c f1 ∗ p0 c (G0 m ρ c) ∗ pR c f1)) _

/-- The signal's payload on the partner's barrier cell, the partner's partner resolved. -/
theorem payload_barP (c : Dev nD) (d : Unit) :
    (sched (F := F) m ρ).payload (barCell (peer c)) 0 d = iprop((∃ f, p1 c f) ∗ reached ER (recvCell c) 0) := by
  rw [payload_bar]; unfold barPay; rw [peer_peer]

theorem payload_barO (c : Dev nD) (d : Unit) :
    (sched (F := F) m ρ).payload (barCell c) 0 d
      = iprop((∃ f, ((SL (peer c) ↦[set1 (peer c)]{fullShare} f) : sProp 𝕄)) ∗ reached ER (recvCell (peer c)) 0) := by
  rw [payload_bar]; rfl
theorem payload_sendO (c : Dev nD) (d : Unit) :
    (sched (F := F) m ρ).payload (sendCell c) 0 d = ((SL c ↦[set0 c]{fullShare} G0 m ρ c) : sProp 𝕄) := by
  rw [payload_send]; rfl
theorem payload_recvO (c : Dev nD) (d : Unit) :
    (sched (F := F) m ρ).payload (recvCell c) 0 d = ((SL c ↦[set1 c]{fullShare} G1 m ρ c) : sProp 𝕄) := by
  rw [payload_recv]; rfl

set_option maxHeartbeats 3200000 in
/-- The copy of slot 0 into the partner's slot 1, addressed to a device `n` that is the partner: the send cell's duty is paid
    with slot 0 lent at its canonical contents, the partner's receive cell's duty with what lands, restated over the
    canonical contents whatever the partner's slot 1 held. -/
theorem wp_send_peer (c n : Dev nD) (hn : n = peer c)
    {hsc : (slot1 : Memref sig (Dev.tc n : Thread nD τ).2.kind .vmem S1x768 .f32).view.ref.isScScratch = false}
    {hsrc : (slot0 : Memref sig .tc .vmem S1x768 .f32).view.WordExact} {hdst : (slot1 : Memref sig .tc .vmem S1x768 .f32).view.WordExact}
    {hsem : DmaTarget.Typed .vmem (.dma recvS.sem) (.remote (Dev.tc n : Thread nD τ) (slot1 : Memref sig .tc .vmem S1x768 .f32) (.dma sendS.sem) hsc)}
    {α : Type} {Q : α → sProp 𝕄} {k : PUnit → Prog (TpuEff nD τ sig (Elt F) Λ₀ .tc) α}
    (fn : Buf (Elt F) (SL (peer c))) (W : Waits sig Unit) :
    iprop(cellInv ER (sched m ρ) (K (c, 1)) (sendCell c) ∗ cellInv ER (sched m ρ) (K (peer c, 2)) (recvCell (peer c))
        ∗ p0 c (G0 m ρ c) ∗ (SL (peer c) ↦[set1 (peer c)]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma sendS.sem) hsc) (.dma recvS.sem) hsrc hdst hsem) k) Q) := by
  subst hn
  unfold p0
  exact Rounds.wp_send_pointsTo 𝒱₀ ER (sched m ρ) (c : Thread nD τ) none (c' := (peer c : Thread nD τ))
    (src := (slot0 : Memref sig .tc .vmem S1x768 .f32)) (dst := (slot1 : Memref sig .tc .vmem S1x768 .f32)) (q := fullShare)
    (fs := G0 m ρ c) (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; exact BI.Entails.refl _)
    (by rw [payload_recv]; unfold recvPay; rw [← p1_landed m ρ (peer c) fn, peer_peer]; unfold p1; exact BI.Entails.refl _)

omit [FloatOps F] [Named F] in
theorem sub0 (c : Dev nD) : (rM : Memref sig .tc .vmem S2x1x768 .f32).view.setOn (r0 : Rect S2x1x768).toLoadRect.set ⊆ set0 c := by
  rw [set0_eq]; intro i hi
  obtain ⟨y, hy, rfl⟩ := Finset.mem_map.mp hi
  exact hy
omit [FloatOps F] [Named F] in
theorem sub1 (c : Dev nD) : (rM : Memref sig .tc .vmem S2x1x768 .f32).view.setOn (r1 : Rect S2x1x768).toLoadRect.set ⊆ set1 c := by
  rw [set1_eq]; intro i hi
  obtain ⟨y, hy, rfl⟩ := Finset.mem_map.mp hi
  exact hy

/-- Slot 0 at its canonical contents reads the column sums. -/
theorem read_slot0 (c : Dev nD) :
    (rM : Memref sig .tc .vmem S2x1x768 .f32).view.readAt (Elt F) (r0 : Rect S2x1x768).toLoadRect (G0 m ρ c) = rsum m ρ c := by
  show ((rM : Memref sig .tc .vmem S2x1x768 .f32).access r0).read (Elt F) (G0 m ρ c) = _
  unfold G0
  exact View.read_write_univ _ _

/-- Slot 1 at its canonical contents reads the partner's column sums: what was written through the squeezed slot, read
    through the slot, is the partner's slot 0 read through the slot. -/
theorem read_slot1 (c : Dev nD) :
    (rM : Memref sig .tc .vmem S2x1x768 .f32).view.readAt (Elt F) (r1 : Rect S2x1x768).toLoadRect (G1 m ρ c) = rsum m ρ (peer c) := by
  show ((rM : Memref sig .tc .vmem S2x1x768 .f32).access r1).read (Elt F) (G1 m ρ c) = _
  unfold G1
  have e : (slot1 : Memref sig .tc .vmem S1x768 .f32).view.write (Elt F) (G0 m ρ c)
        ((slot0 : Memref sig .tc .vmem S1x768 .f32).view.read (Elt F) (G0 m ρ (peer c))) Finset.univ
      = ((rM : Memref sig .tc .vmem S2x1x768 .f32).access r1).write (Elt F) (G0 m ρ c)
          (fun x => (slot0 : Memref sig .tc .vmem S1x768 .f32).view.read (Elt F) (G0 m ρ (peer c))
            ((Shape.reshapeEquiv squeezes_S1x1x768_S1x768.numel_eq).symm x)) Finset.univ :=
    View.write_reshape_univ ((rM : Memref sig .tc .vmem S2x1x768 .f32).access r1) squeezes_S1x1x768_S1x768.numel_eq _ _
  rw [e, View.read_write_univ]
  funext x
  show ((rM : Memref sig .tc .vmem S2x1x768 .f32).access r0).read (Elt F) (G0 m ρ (peer c))
    (Shape.reshapeEquiv squeezes_S1x1x768_S1x768.numel_eq ((Shape.reshapeEquiv squeezes_S1x1x768_S1x768.numel_eq).symm x)) = _
  rw [Equiv.apply_symm_apply]
  unfold G0
  exact congrFun (View.read_write_univ _ _) x

attribute [local sl_rounds] duties_bar duties_send duties_recv amount_bar amount_send amount_recv expect_bar expect_send expect_recv
  payload_barO payload_sendO payload_recvO

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret]
  unfold bodyPre ghost Proto.invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hxv := (Entails.of_eq (pts_view c cc0_stg0_0 _)) $$ Hx
  ihave Houtv := (Entails.of_eq (pts_view c cc0_stg1_0 _)) $$ Hout
  ihave Hscrv := (Entails.of_eq (pts_view c cc0_scratch0 _)) $$ Hscr
  -- the local steps: the block loaded, slot 0 loaded and overwritten with the column sums
  sl_exec
  -- the buffer cut into its slots
  ihave Hcut := (scr_cut m ρ c f0 _ (read_x _)) $$ Hscrv
  icases Hcut with ⟨%f1, H1, H0, HR⟩
  -- the signal to the partner's barrier cell: slot 1 goes with it, and that the receive cell is at round 0
  simp only [dev1_eq c, dev2_eq c]
  iapply (Rounds.wp_signal 𝒱₀ ER (sched m ρ) (c : Thread nD τ) none (dst := (peer c : Thread nD τ)) (κ := K (peer c, 0))
      (d := ()) (by rw [duties_bar]; exact Finset.mem_singleton_self _) ((amount_bar m ρ (peer c) ()).trans (by decide)) ()
      (tallyAt (recvCell (peer c)) () N) rfl) $$ [HO HtBP H1]
  · isplitr; · iexact HIbarP
    isplitl [HO]; · iexact HO
    isplitl [HtBP]; · iexact HtBP
    isplitl [H1]
    · rw [payload_barP]
      isplitl [H1]; · iexists f1; iexact H1
      iexact HrV
    · iexact HrBP
  iintro HO
  -- the wait on its own barrier cell, owing the partner's receive credit
  have hmw := mayWait_bar (F := F) c
  sl_exec
  -- the copy of slot 0 into the partner's slot 1
  iapply (wp_send_peer m ρ K c _ (dev2_eq c) HatB_pay1_v _) $$ [H0 HatB_pay1 HO HtS HtVP]
  · isplitr; · iexact HIsnd
    isplitr; · iexact HIrcvP
    isplitl [H0]; · iexact H0
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  -- the waits on its send cell (slot 0 back) and on its receive cell (slot 1 holding the partner's column sums)
  sl_exec
  -- the two own cells close: their counters at zero are the device's again
  imod (Rounds.cell_close ER (sched m ρ) (Set.mem_univ (K (c, 1))) (fun h => h) (R := 1) (duties_later m ρ (sendCell c))) $$ [HatS] with HzS
  · isplitr; · iexact HIsnd
    iexact HatS
  imod (Rounds.cell_close ER (sched m ρ) (Set.mem_univ (K (c, 2))) (fun h => h) (R := 1) (duties_later m ρ (recvCell c))) $$ [HatV] with HzV
  · isplitr; · iexact HIrcv
    iexact HatV
  -- the two slots loaded, each from the part that holds it
  iapply (wp_load 𝒱₀ (c : Thread nD τ) none Set.univ (m := (rM : Memref sig .tc .vmem S2x1x768 .f32)) (S := set0 c) (sub0 c)) $$ HatS_pay1; iintro H0
  rw [read_slot0]
  iapply (wp_load 𝒱₀ (c : Thread nD τ) none Set.univ (m := (rM : Memref sig .tc .vmem S2x1x768 .f32)) (S := set1 c) (sub1 c)) $$ HatV_pay1; iintro H1
  rw [read_slot1]
  -- the result loaded and stored
  ihave Houtw := (Entails.of_eq (show ((View.loc (c : Thread nD τ) (View.whole cc0_stg1_0 : View sig .tc _ _ _)
      ↦[(View.whole cc0_stg1_0 : View sig .tc _ _ _).set]{fullShare} g1) : sProp 𝕄)
    = ((oM : Memref sig .tc .vmem S1x768 .f32).view.loc (c : Thread nD τ) ↦[(oM : Memref sig .tc .vmem S1x768 .f32).view.set]{fullShare} g1) from rfl)) $$ Houtv
  sl_exec
  rw [wp_ret]; imodintro
  iapply Hk
  unfold bodyPost Φ₁ Dat.owesAt Pipeline.owesWithin
  rw [show (dats m ρ 0 c).owed t₀.succ = 0 from rfl]
  ihave Hx2 := (Entails.of_eq (pts_view c cc0_stg0_0 _).symm) $$ Hxv
  ihave Ho2 := (Entails.of_eq (pts_view c cc0_stg1_0 _).symm) $$ Houtw
  isplitl [H1 H0 HR HzS HzV]
  · isplitl [H1 H0 HR]
    · -- the three parts are the whole buffer again
      iapply (scr_join c (G1 m ρ c) (G0 m ρ c) f1)
      unfold p1 p0
      isplitl [H1]; · iexact H1
      isplitl [H0]; · iexact H0
      iexact HR
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx2]
  · iexists _; isplitr; · (ipureintro; rfl)
    iexact Hx2
  iexists _; isplitr
  · ipureintro
    show ((oM : Memref sig .tc .vmem S1x768 .f32).access (Rect.unit (s := S1x768) ![0, 0] S1x768.size inb_S1x768_S1x768_0_0) : View sig .tc _ _ _).write (Elt F) g1
      (k0_pay1 (rsum m ρ c) (rsum m ρ (peer c))) Finset.univ = outAt m ρ c
    exact write_out g1 _
  iexact Ho2

/-- info: 'Cert.KernelIdeal.Body.sound_body' depends on axioms: [propext, Classical.choice, Quot.sound] -/
#guard_msgs in #print axioms sound_body

end Cert.KernelIdeal.Body

end
-- ==== Proof.KiLaunch.lean ====
import proofs.«900957_g7700000000000958_dist_mean_ax0_xy_m1536_n768_v7x_xy2x2_bf16_1_alg».proof.Proof.KiBody

/-!
# The run of the kernel on the mesh

The exchange's cells are funded at launch, every cell's invariant is allocated in one global step (the barrier
cell is touched by two devices), the duty tokens are dealt between partners, and the launch theorem turns the
body's proof on each device into the run of the program. Every weakly fair execution of the four devices'
kernels terminates, faults nowhere, leaves each device's argument block unchanged and its result array at
(own column sums + partner's column sums) times the named constant.
-/

noncomputable section

namespace Cert.KernelIdeal.Launch

open Cert.KernelIdeal Cert.KernelIdeal.Gen Cert.KernelIdeal.Proto Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] [Named F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m ρ) xCells xToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] [Named F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] [Named F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (sched m ρ) (K ck) (kcell ck) : sProp 𝕄)) ⊢ cellInv ER (sched m ρ) (K ck) (kcell ck) :=
  bigSep_elim (Finset.mem_univ ck)
omit [FloatOps F] [Named F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost Proto.invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] [Named F] in
/-- The tokens dealt between partners: a barrier cell's and a receive cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (sched m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] [Named F] in
theorem bar_eq_iff {a b : Dev nD} : Iff (barCell a = barCell b) (a = b) :=
  ⟨fun h => Fin.ext (congrArg (fun g : GSem nD τ sig => g.1.1.val) h), fun h => h ▸ rfl⟩
omit [FloatOps F] [Named F] in
theorem recv_eq_iff {a b : Dev nD} : Iff (recvCell a = recvCell b) (a = b) :=
  ⟨fun h => Fin.ext (congrArg (fun g : GSem nD τ sig => g.1.1.val) h), fun h => h ▸ rfl⟩

omit [FloatOps F] [Named F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

omit [FloatOps F] [Named F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

omit [FloatOps F] [Named F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] [Named F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] [Named F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the four kernels terminates, and every final state has
    each window's array at the proof data's final contents. -/
theorem run_arrays : θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

omit [Named F] in
theorem hzOut : (fun a => (win0_1.index (t₀ : Fin cfg0.N)) a * (main_v1 : Ref sig .tc).ty.shape.size a) = fun _ => 0 :=
  funext fun a => Nat.zero_mul _

/-- The result array after the run holds the kernel's result: the one point writes the whole block back. -/
theorem finalA_out (c : Dev nD) : finalA m ρ c (1 : Fin 2) = outAt m ρ c := by
  unfold finalA
  show (dats m ρ 0 c).arrAt (1 : Fin 2) ((t₀ : Fin cfg0.N).val + 1) = _
  rw [Dat.arrAt_succ, if_pos (flush0_1 t₀)]
  exact Memref.write_access_unit_zero_univ (Elt F) main_v1 hzOut _ _ _

/-- Every weakly fair execution of the four devices' kernels terminates, faults nowhere, leaves each device's argument block
    unchanged and its result array at (own column sums + partner's column sums) times the named constant. -/
theorem run_main : θ_run defs (onTc (τ := τ) (main (F := F))) (st0 m ρ) (fun r => ∀ c : Dev nD,
    r.2.mem ((c : Thread nD τ).loc main_v1) = outAt m ρ c
    ∧ r.2.mem ((c : Thread nD τ).loc main_arg0) = m ((c : Thread nD τ).loc main_arg0)) :=
  (θ_run defs _ _).mono (fun _ h c => ⟨(h c (1 : Fin 2)).trans (finalA_out m ρ c), (h c (0 : Fin 2)).trans (finalA_x m ρ c)⟩) (run_arrays m ρ)

/-- info: 'Cert.KernelIdeal.Launch.run_main' depends on axioms: [propext, Classical.choice, Quot.sound] -/
#guard_msgs in #print axioms run_main

end Cert.KernelIdeal.Launch

end
-- ==== Proof.OutValue.lean ====
import proofs.«900957_g7700000000000958_dist_mean_ax0_xy_m1536_n768_v7x_xy2x2_bf16_1_alg».proof.Defs
import proofs.«900957_g7700000000000958_dist_mean_ax0_xy_m1536_n768_v7x_xy2x2_bf16_1_alg».proof.Proof.Gen.KernelIdeal
import proofs.«900957_g7700000000000958_dist_mean_ax0_xy_m1536_n768_v7x_xy2x2_bf16_1_alg».proof.Proof.Gen.KernelIdeal.Skeleton
import proofs.«900957_g7700000000000958_dist_mean_ax0_xy_m1536_n768_v7x_xy2x2_bf16_1_alg».proof.Proof.Gen.ReferenceIdeal
import proofs.«900957_g7700000000000958_dist_mean_ax0_xy_m1536_n768_v7x_xy2x2_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.OutValue

open Idealize.ShloMosaic Idealize.ShloMosaic.ValueIdx
open scoped BigOperators

/-! ## The constants -/

/-- The kernel's named reciprocal denotes the rational `1/3072` on the extended reals, by the certificate's table. -/
theorem inv_rows :
    Named.named (F := Ideal) Cert.KernelIdeal.κ "inv_rows" (φ := .f32) 0x39AAAAAB#32 = ((1 / 3072 : ℝ) : EReal) :=
  IdealRules.named_const.ideal_named_scalar _ _ _ _ rfl

/-- The reference's divisor, the word of `3072.0`, denotes the real `3072`. -/
theorem ofBits_3072 : Ideal.ofBits .f32 0x45400000#32 = ((3072 : ℝ) : EReal) := by
  simp [Ideal.ofBits, Ideal.ieee, -EReal.coe_mul]; norm_num

/-! ## The mesh: which block a device holds -/

/-- Device `c` of the 2 x 2 mesh has row coordinate `c / 2`. -/
theorem row_coord (c : Fin 4) : Layout.meshLin [2, 2] c.val [0] = c.val / 2 := by revert c; decide

/-- Device `c` of the 2 x 2 mesh has column coordinate `c % 2`. -/
theorem col_coord (c : Fin 4) : Layout.meshLin [2, 2] c.val [1] = c.val % 2 := by revert c; decide

/-- An index of the whole 3072 x 1536 array is its row and its column. -/
theorem idx_ext (x y : (⟨2, ![3072, 1536]⟩ : Shape).Idx) (h0 : (x 0).val = (y 0).val) (h1 : (x 1).val = (y 1).val) :
    x = y := by
  funext b
  match b with
  | ⟨0, _⟩ => exact Fin.ext h0
  | ⟨1, _⟩ => exact Fin.ext h1

/-! ## A sum over 3072 rows is the sum over the first 1536 plus the sum over the last 1536 -/

theorem sum_halves (g : Fin 3072 → EReal) :
    ∑ k : Fin 3072, g k
      = ∑ r : Fin 1536, g ⟨r.val, by omega⟩ + ∑ r : Fin 1536, g ⟨1536 + r.val, by omega⟩ :=
  Fin.sum_univ_add (a := 1536) (b := 1536) g

/-! ## The kernel's two payloads at an index -/

/-- The first payload is the column sum of its block: at lane `j`, the sum over the block's 1536 rows. -/
theorem colsum_apply (X : FVec Ideal ⟨2, ![1536, 768]⟩ .f32) (u v : Fin 1) (j : Fin 768) :
    Cert.KernelIdeal.Gen.k0_pay2 (F := Ideal) X (ix3 u v j) = ∑ r : Fin 1536, X (ix2 r j) := by
  unfold Cert.KernelIdeal.Gen.k0_pay2
  rw [shapeCast_ab_1ab_apply, shapeCast_a_1a_apply]
  refine (Ideal.multiReduction_add_single _ _ _ _ _ (ix1 j)).trans ?_
  rw [shapeCast_self]
  refine Finset.sum_congr rfl fun r _ => congrArg X ?_
  funext b
  match b with
  | ⟨0, _⟩ => rfl
  | ⟨1, _⟩ => rfl

/-- The second payload adds the two devices' column sums and scales by the named `1/3072`. -/
theorem scaled_apply (v w : FVec Ideal ⟨3, ![1, 1, 768]⟩ .f32) (u : Fin 1) (j : Fin 768) :
    Cert.KernelIdeal.Gen.k0_pay1 (F := Ideal) v w (ix2 u j)
      = (v (ix3 (0 : Fin 1) u j) + w (ix3 (0 : Fin 1) u j)) * ((1 / 3072 : ℝ) : EReal) := by
  unfold Cert.KernelIdeal.Gen.k0_pay1
  rw [mulf_apply, addf_apply, broadcast_apply, shapeCast_1ab_ab_apply, shapeCast_1ab_ab_apply, inv_rows]

/-- Device `c` of the 2 x 2 mesh holds block `(c / 2, c % 2)` of the whole array `A`; its partner `p`, the device with the
    other row coordinate and the same column coordinate, holds the other half of the same columns. The kernel's result on `c`
    -- the sum of the two devices' column sums, times the named `1/3072` -- is block `c % 2` of the columns of the whole
    array's column means. -/
theorem out_block (A : (⟨2, ![3072, 1536]⟩ : Shape).Idx → EReal) (c p : Fin 4) (hp : p.val = (c.val + 2) % 4) :
    Cert.KernelIdeal.Gen.k0_pay1 (F := Ideal)
        (Cert.KernelIdeal.Gen.k0_pay2 (F := Ideal) (Layout.blockN ⟨2, ![1536, 768]⟩ ⟨2, ![3072, 1536]⟩ (Layout.meshBlock [2, 2] ![[0], [1]] c) A))
        (Cert.KernelIdeal.Gen.k0_pay2 (F := Ideal) (Layout.blockN ⟨2, ![1536, 768]⟩ ⟨2, ![3072, 1536]⟩ (Layout.meshBlock [2, 2] ![[0], [1]] p) A))
      = Layout.blockN ⟨2, ![1, 768]⟩ ⟨2, ![1, 1536]⟩ (Layout.meshBlock [2, 2] ![[], [1]] c) (Cert.ReferenceIdeal.Read.val_main_v3 (F := Ideal) A) := by
  funext i
  obtain ⟨u, j, rfl⟩ : ∃ (u : Fin 1) (j : Fin 768), i = ix2 u j := ⟨i 0, i 1, eq_ix2 i⟩
  rw [scaled_apply, colsum_apply, colsum_apply, Layout.blockN_apply,
    Cert.ReferenceIdeal.Read.val_main_v3_apply, Cert.ReferenceIdeal.Read.val_main_v1_apply,
    Cert.ReferenceIdeal.Read.val_main_v0_apply, Cert.ReferenceIdeal.Read.val_main_cst_apply,
    Cert.ReferenceIdeal.Read.val_main_v2_apply, Cert.ReferenceIdeal.Read.val_main_cst_0_apply]
  rw [Ideal.hostDivf_def, Ideal.ofBits_def, Ideal.ofBits_def, Ideal.ofBits_zero_f32, ofBits_3072,
    Ideal.div_coe (by norm_num : (3072 : ℝ) ≠ 0), zero_add, sum_halves]
  refine congrArg (· * _) ?_
  simp only [Layout.blockN_apply]
  have hc := c.isLt
  rcases Nat.lt_or_ge c.val 2 with h2 | h2
  · -- `c` is in mesh row 0: its block is the first 1536 rows, its partner's the last 1536
    refine congrArg₂ (· + ·) (Finset.sum_congr rfl fun r _ => congrArg A ?_)
      (Finset.sum_congr rfl fun r _ => congrArg A ?_)
    · refine idx_ext _ _ ?_ ?_
      · show Layout.meshLin [2, 2] c.val [0] * 1536 + r.val = r.val
        rw [row_coord]; omega
      · rfl
    · refine idx_ext _ _ ?_ ?_
      · show Layout.meshLin [2, 2] p.val [0] * 1536 + r.val = 1536 + r.val
        rw [row_coord]; omega
      · show Layout.meshLin [2, 2] p.val [1] * 768 + j.val = Layout.meshLin [2, 2] c.val [1] * 768 + j.val
        rw [col_coord, col_coord]; omega
  · -- `c` is in mesh row 1: its block is the last 1536 rows, its partner's the first 1536
    rw [add_comm]
    refine congrArg₂ (· + ·) (Finset.sum_congr rfl fun r _ => congrArg A ?_)
      (Finset.sum_congr rfl fun r _ => congrArg A ?_)
    · refine idx_ext _ _ ?_ ?_
      · show Layout.meshLin [2, 2] p.val [0] * 1536 + r.val = r.val
        rw [row_coord]; omega
      · show Layout.meshLin [2, 2] p.val [1] * 768 + j.val = Layout.meshLin [2, 2] c.val [1] * 768 + j.val
        rw [col_coord, col_coord]; omega
    · refine idx_ext _ _ ?_ ?_
      · show Layout.meshLin [2, 2] c.val [0] * 1536 + r.val = 1536 + r.val
        rw [row_coord]; omega
      · rfl

end Cert.OutValue

/-- info: 'Cert.OutValue.out_block' depends on axioms: [propext, Classical.choice, Quot.sound] -/
#guard_msgs in #print axioms Cert.OutValue.out_block

end
-- ==== Proof.KiBridge.lean ====
import proofs.«900957_g7700000000000958_dist_mean_ax0_xy_m1536_n768_v7x_xy2x2_bf16_1_alg».proof.Defs
import proofs.«900957_g7700000000000958_dist_mean_ax0_xy_m1536_n768_v7x_xy2x2_bf16_1_alg».proof.Proof.KiProto
import proofs.«900957_g7700000000000958_dist_mean_ax0_xy_m1536_n768_v7x_xy2x2_bf16_1_alg».proof.Proof.OutValue
import proofs.«900957_g7700000000000958_dist_mean_ax0_xy_m1536_n768_v7x_xy2x2_bf16_1_alg».proof.Proof.Gen.ReferenceIdeal.Read
import Idealize.ShloMosaic.Lib.Layout

/-!
# From the kernel's result on a device to a block of the reference's result

The kernel's result on device `c` is a function of two blocks of memory: the device's own argument block and its
partner's. When every device's argument block is its block of one whole array `A`, that function's value is
block `c % 2` of the columns of the reference's result on `A`: the sum over all 3072 rows splits into the two
devices' sums over 1536 rows, and the division by 3072 is the product with the named `1/3072`.
-/

noncomputable section

namespace Cert.Bridge

open Idealize.ShloMosaic Idealize.SL.Sem

/-- The argument's window is the whole array: its one block, read off the memory at launch, is the device's
    argument buffer itself. -/
theorem xstg_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Proto.xstg (F := Ideal) m ρ c
      = m ((c.tc : Thread Cert.KernelIdeal.nD Cert.KernelIdeal.τ).loc Cert.KernelIdeal.main_arg0) := by
  have hz : (fun a => (Cert.KernelIdeal.win0_0.index (0 : Fin 1)) a * Cert.KernelIdeal.main_arg0.ty.shape.size a) = fun _ => 0 :=
    funext fun a => Nat.zero_mul _
  unfold Cert.KernelIdeal.Proto.xstg Cert.KernelIdeal.Proto.st0
  exact Memref.read_access_unit_zero (Elt Ideal) Cert.KernelIdeal.main_arg0 hz _ _

/-- With every device's argument buffer its block of the whole array `A`, the kernel's result on device `c` is
    its block of the reference's result on `A`. -/
theorem outAt_block (m : (ℓ : Loc Cert.KernelIdeal.nD Cert.KernelIdeal.τ Cert.KernelIdeal.sig) → Buf (Elt Ideal) ℓ)
    (ρ : Dev Cert.KernelIdeal.nD → PrngReg)
    (A : Buf (Elt Ideal) (((0 : Dev Cert.ReferenceIdeal.nD).tc : Thread Cert.ReferenceIdeal.nD Cert.ReferenceIdeal.τ).loc Cert.ReferenceIdeal.main_arg0))
    (hagree : ∀ c : Dev Cert.KernelIdeal.nD,
      m ((c.tc : Thread Cert.KernelIdeal.nD Cert.KernelIdeal.τ).loc Cert.KernelIdeal.main_arg0) = Layout.blockN ⟨2, ![1536, 768]⟩ ⟨2, ![3072, 1536]⟩ (Layout.meshBlock [2, 2] ![[0], [1]] c) A)
    (c : Dev Cert.KernelIdeal.nD) :
    Cert.KernelIdeal.Proto.outAt (F := Ideal) m ρ c
      = Layout.blockN ⟨2, ![1, 768]⟩ ⟨2, ![1, 1536]⟩ (Layout.meshBlock [2, 2] ![[], [1]] c) (Cert.ReferenceIdeal.Read.val_main_v3 (F := Ideal) A) := by
  unfold Cert.KernelIdeal.Proto.outAt Cert.KernelIdeal.Proto.rsum
  rw [xstg_eq, xstg_eq, hagree c, hagree (Cert.KernelIdeal.Proto.peer c)]
  exact Cert.OutValue.out_block A c (Cert.KernelIdeal.Proto.peer c) (Cert.KernelIdeal.Proto.peer_val c)

end Cert.Bridge

/-- info: 'Cert.Bridge.outAt_block' depends on axioms: [propext, Classical.choice, Quot.sound] -/
#guard_msgs in #print axioms Cert.Bridge.outAt_block

end
-- ==== Proof.lean ====
/- The proof of `Cert.Claim`: the kernel on the 2 x 2 mesh and its idealization run and leave their argument blocks
   unchanged, the reference runs and leaves its argument unchanged, the idealization's one named constant is the
   rational `1/3072`, and at the ideal values each device's result is its block of the reference's result.
   The last is one law: a column's sum over all 3072 rows is the sum over the device's 1536 rows plus the sum over
   its partner's 1536 rows (in one order or the other, addition being commutative), and dividing by the real 3072
   is multiplying by `1/3072` on every extended real. Nothing is distributed or cancelled, so no finiteness of the
   inputs is used. -/
import proofs.«900957_g7700000000000958_dist_mean_ax0_xy_m1536_n768_v7x_xy2x2_bf16_1_alg».proof.Defs
import proofs.«900957_g7700000000000958_dist_mean_ax0_xy_m1536_n768_v7x_xy2x2_bf16_1_alg».proof.Proof.Gen.Kernel
import proofs.«900957_g7700000000000958_dist_mean_ax0_xy_m1536_n768_v7x_xy2x2_bf16_1_alg».proof.Proof.Gen.KernelIdeal
import proofs.«900957_g7700000000000958_dist_mean_ax0_xy_m1536_n768_v7x_xy2x2_bf16_1_alg».proof.Proof.Gen.ReferenceIdeal
import proofs.«900957_g7700000000000958_dist_mean_ax0_xy_m1536_n768_v7x_xy2x2_bf16_1_alg».proof.Proof.Gen.Pre_finite_inputs_Kernel
import proofs.«900957_g7700000000000958_dist_mean_ax0_xy_m1536_n768_v7x_xy2x2_bf16_1_alg».proof.Proof.Gen.Pre_finite_inputs_ReferenceIdeal
import proofs.«900957_g7700000000000958_dist_mean_ax0_xy_m1536_n768_v7x_xy2x2_bf16_1_alg».proof.Proof.Gen.ReferenceIdeal.Run
import proofs.«900957_g7700000000000958_dist_mean_ax0_xy_m1536_n768_v7x_xy2x2_bf16_1_alg».proof.Proof.Gen.ReferenceIdeal.Read
import proofs.«900957_g7700000000000958_dist_mean_ax0_xy_m1536_n768_v7x_xy2x2_bf16_1_alg».proof.Proof.KLaunch
import proofs.«900957_g7700000000000958_dist_mean_ax0_xy_m1536_n768_v7x_xy2x2_bf16_1_alg».proof.Proof.KiLaunch
import proofs.«900957_g7700000000000958_dist_mean_ax0_xy_m1536_n768_v7x_xy2x2_bf16_1_alg».proof.Proof.KiBridge

noncomputable section

namespace Cert.Proof

open Idealize.ShloMosaic Idealize.SL.Sem

/-- The kernel as printed: every execution on the mesh terminates without fault, each device's argument block as it
    was (the run's result clause dropped). -/
theorem frame_k : Cert.frame_Kernel := fun m g _ =>
  (θ_run Cert.Kernel.defs _ _).mono (fun _ h c => (h c).2) (Cert.Kernel.Launch.run_main (F := Bits) m g)

/-- The same of the idealized kernel, at the ideal values. -/
theorem frame_ki : Cert.frame_KernelIdeal := fun m g _ =>
  (θ_run Cert.KernelIdeal.defs _ _).mono (fun _ h c => (h c).2) (Cert.KernelIdeal.Launch.run_main (F := Ideal) m g)

/-- The reference runs and its argument array ends as it was (its result clause dropped). -/
theorem frame_ri : Cert.frame_ReferenceIdeal := fun m g _ =>
  (θ_run Cert.ReferenceIdeal.defs _ _).mono (fun _ h c => (h c).2) (Cert.ReferenceIdeal.Value.run (F := Ideal) m g)

/-- The idealization's one rewrite: the table gives `"inv_rows"` the value `1/3072`, and the printed constant is that
    value at the ideal instance. -/
theorem preserves : Cert.preserves_Kernel_KernelIdeal :=
  IdealRules.named_const.statement Cert.KernelIdeal.κ "inv_rows" .f32 0x39AAAAAB#32 ((1 / 3072 : ℝ) : EReal) rfl

/-- At the ideal values: the reference's result on the whole array is the column means; each device's result is
    (its block's column sums + its partner's) times `1/3072`, which is the device's block of those means when every
    device's argument is its block of the whole array. -/
theorem algebraic : Cert.algebraic_KernelIdeal_ReferenceIdeal := by
  intro m g m' g' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.Bridge.outAt_block m g _ hagree c), (h c).2⟩)
      (Cert.KernelIdeal.Launch.run_main (F := Ideal) m g)
  · exact (θ_run Cert.ReferenceIdeal.defs _ _).mono
      (fun _ h => ⟨(h 0).1.trans (Cert.ReferenceIdeal.Read.val_main_v3_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

/-- info: 'Cert.Proof.claim' depends on axioms: [propext, Classical.choice, Quot.sound] -/
#guard_msgs in #print axioms Cert.Proof.claim

end
